-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x150000 : Shape := ⟨2, ![2, 150000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S2x150000 : S_.BroadcastsInDim S2x150000 (![] : Fin 0 → Fin S2x150000.rank)
  reducesTo_S2x150000_S_d0_1 : S2x150000.ReducesTo [0, 1] S_

variable [Facts]

def fn {F : FTy → Type} [FloatOps F] (main_arg0 : FVec F S50000x512 .f32) (main_arg1 : IVec S2x150000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_c_0 : IVec S_ 32 := constantI S_ 32 4294917296#32
  let main_v4 : IVec S2x150000 32 := broadcastInDim S2x150000 ![] bcast_S_S2x150000 main_c_0
  let main_v5 : IVec S2x150000 1 := cmpi .sge main_arg1 main_v4
  let main_c_1 : IVec S_ 1 := constantI S_ 1 1#1
  let main_v6 : IVec S_ 1 := (fun x v => Host.reduce IntOp.andi x v reducesTo_S2x150000_S_d0_1 h_S_) main_v5 main_c_1
  let main_v7 : IVec S_ 1 := andi main_v3 main_v6
  let main_c_2 : IVec S_ 32 := constantI S_ 32 50000#32
  let main_v8 : IVec S2x150000 32 := broadcastInDim S2x150000 ![] bcast_S_S2x150000 main_c_2
  let main_v9 : IVec S2x150000 1 := cmpi .slt main_arg1 main_v8
  let main_c_3 : IVec S_ 1 := constantI S_ 1 1#1
  let main_v10 : IVec S_ 1 := (fun x v => Host.reduce IntOp.andi x v reducesTo_S2x150000_S_d0_1 h_S_) main_v9 main_c_3
  let main_v11 : IVec S_ 1 := andi main_v7 main_v10
  main_v11
-- ==== Kernel.lean ====
abbrev S50000x512 : Shape := ⟨2, ![50000, 512]⟩
abbrev S2x150000 : Shape := ⟨2, ![2, 150000]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S1 : Shape := ⟨1, ![1]⟩
abbrev S1x1 : Shape := ⟨2, ![1, 1]⟩
abbrev S150000x512 : Shape := ⟨2, ![150000, 512]⟩
abbrev S2000x512 : Shape := ⟨2, ![2000, 512]⟩
abbrev S2000x1 : Shape := ⟨2, ![2000, 1]⟩
abbrev S2000 : Shape := ⟨1, ![2000]⟩

abbrev nBuf : Space → Nat
  | .hbm => 54
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S2x150000, .i32⟩
  | .hbm, ⟨2, _⟩ => ⟨S1x150000, .i32⟩
  | .hbm, ⟨3, _⟩ => ⟨S150000, .i32⟩
  | .hbm, ⟨4, _⟩ => ⟨S1x150000, .i32⟩
  | .hbm, ⟨5, _⟩ => ⟨S150000, .i32⟩
  | .hbm, ⟨6, _⟩ => ⟨S_, .i32⟩
  | .hbm, ⟨7, _⟩ => ⟨S150000, .i32⟩
  | .hbm, ⟨8, _⟩ => ⟨S150000, .i1⟩
  | .hbm, ⟨9, _⟩ => ⟨S_, .i32⟩
  | .hbm, ⟨10, _⟩ => ⟨S150000, .i32⟩
  | .hbm, ⟨11, _⟩ => ⟨S150000, .i32⟩
  | .hbm, ⟨12, _⟩ => ⟨S150000, .i32⟩
  | .hbm, ⟨13, _⟩ => ⟨S150000x1, .i32⟩
  | .hbm, ⟨14, _⟩ => ⟨S1, .i32⟩
  | .hbm, ⟨15, _⟩ => ⟨S_, .i32⟩
  | .hbm, ⟨16, _⟩ => ⟨S150000x1, .i32⟩
  | .hbm, ⟨17, _⟩ => ⟨S150000x1, .i1⟩
  | .hbm, ⟨18, _⟩ => ⟨S1x1, .i32⟩
  | .hbm, ⟨19, _⟩ => ⟨S150000x1, .i32⟩
  | .hbm, ⟨20, _⟩ => ⟨S150000x1, .i1⟩
  | .hbm, ⟨21, _⟩ => ⟨S150000x1, .i1⟩
  | .hbm, ⟨22, _⟩ => ⟨S_, .i1⟩
  | .hbm, ⟨23, _⟩ => ⟨S150000, .i1⟩
  | .hbm, ⟨24, _⟩ => ⟨S150000x512, .f32⟩
  | .hbm, ⟨25, _⟩ => ⟨S150000x512, .i1⟩
  | .hbm, ⟨26, _⟩ => ⟨S_, .f32⟩
  | .hbm, ⟨27, _⟩ => ⟨S150000x512, .f32⟩
  | .hbm, ⟨28, _⟩ => ⟨S150000x512, .f32⟩
  | .hbm, ⟨29, _⟩ => ⟨S_, .i32⟩
  | .hbm, ⟨30, _⟩ => ⟨S150000, .i32⟩
  | .hbm, ⟨31, _⟩ => ⟨S150000, .i1⟩
  | .hbm, ⟨32, _⟩ => ⟨S_, .i32⟩
  | .hbm, ⟨33, _⟩ => ⟨S150000, .i32⟩
  | .hbm, ⟨34, _⟩ => ⟨S150000, .i32⟩
  | .hbm, ⟨35, _⟩ => ⟨S150000, .i32⟩
  | .hbm, ⟨36, _⟩ => ⟨S150000x1, .i32⟩
  | .hbm, ⟨37, _⟩ => ⟨S1, .i32⟩
  | .hbm, ⟨38, _⟩ => ⟨S_, .i32⟩
  | .hbm, ⟨39, _⟩ => ⟨S150000x1, .i32⟩
  | .hbm, ⟨40, _⟩ => ⟨S150000x1, .i1⟩
  | .hbm, ⟨41, _⟩ => ⟨S1x1, .i32⟩
  | .hbm, ⟨42, _⟩ => ⟨S150000x1, .i32⟩
  | .hbm, ⟨43, _⟩ => ⟨S150000x1, .i1⟩
  | .hbm, ⟨44, _⟩ => ⟨S150000x1, .i1⟩
  | .hbm, ⟨45, _⟩ => ⟨S_, .i1⟩
  | .hbm, ⟨46, _⟩ => ⟨S150000, .i1⟩
  | .hbm, ⟨47, _⟩ => ⟨S150000x512, .f32⟩
  | .hbm, ⟨48, _⟩ => ⟨S150000x512, .i1⟩
  | .hbm, ⟨49, _⟩ => ⟨S_, .f32⟩
  | .hbm, ⟨50, _⟩ => ⟨S150000x512, .f32⟩
  | .hbm, ⟨51, _⟩ => ⟨S150000x512, .f32⟩
  | .hbm, ⟨52, _⟩ => ⟨S150000x1, .f32⟩
  | .hbm, ⟨53, _⟩ => ⟨S150000, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S2000x1, .f32⟩
  | .local _ .vmem, ⟨5, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  reducesTo_S150000x1_S150000_d1 : S150000x1.ReducesTo [1] S150000
  h_S_ : 0 < S_.numel
  bcast_S150000_S150000x512_0 : S150000.BroadcastsInDim S150000x512 (![0] : Fin 1 → Fin S150000x512.rank)
  bcast_S_S150000x512 : S_.BroadcastsInDim S150000x512 (![] : Fin 0 → Fin S150000x512.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  reduces_S2000x512_S2000 : S2000x512.Reduces [1] S2000
  shapeCasts_S2000_S2000x1 : S2000.ShapeCasts S2000x1
  broadcasts_S2000x1_S2000x512 : S2000x1.Broadcasts S2000x512
  inb_S2000x1_S2000x1_0_0 : ∀ a, (![0, 0] : Fin 2 → Nat) a + S2000x1.size a ≤ S2000x1.size a
  h_S2000x1 : 0 < S2000x1.numel
  shapeCasts_S150000x1_S150000 : S150000x1.ShapeCasts S150000
  gather_S50000x512_S150000x1_S150000x512_1_0_n_n_0_1_1512_wf : GatherDims.WF S50000x512 S150000x1 S150000x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S150000x512.size a
  hwx0_0 : ∀ i : grid0.Coords, EltTy.bits .f32 = 32 ∨ (Rect.block (s := S150000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S150000x512.size a
  hwx0_1 : ∀ i : grid0.Coords, EltTy.bits .f32 = 32 ∨ (Rect.block (s := S150000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S150000x1.size a
  hwx0_2 : ∀ i : grid0.Coords, EltTy.bits .f32 = 32 ∨ (Rect.block (s := S150000x1) S2000x1.size (cc0_transform_2 i) (hinb0_2 i)).WholeWords (EltTy.packing .f32)

variable [Facts₀]

def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf

abbrev win0_0 : Pipeline.Window sig grid0 :=
  Pipeline.Window.ofSpec (Memref.whole main_v4) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x150000 : Shape := ⟨2, ![2, 150000]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩

abbrev nBuf : Space → Nat
  | .hbm => 57
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x150000, .i32⟩
  | .hbm, ⟨2, _⟩ => ⟨S1x150000, .i32⟩
  | .hbm, ⟨3, _⟩ => ⟨S150000, .i32⟩
  | .hbm, ⟨4, _⟩ => ⟨S_, .i32⟩
  | .hbm, ⟨5, _⟩ => ⟨S150000, .i32⟩
  | .hbm, ⟨6, _⟩ => ⟨S150000, .i1⟩
  | .hbm, ⟨7, _⟩ => ⟨S_, .i32⟩
  | .hbm, ⟨8, _⟩ => ⟨S150000, .i32⟩
  | .hbm, ⟨9, _⟩ => ⟨S150000, .i32⟩
  | .hbm, ⟨10, _⟩ => ⟨S150000, .i32⟩
  | .hbm, ⟨11, _⟩ => ⟨S150000x1, .i32⟩
  | .hbm, ⟨12, _⟩ => ⟨S150000x512, .f32⟩
  | .hbm, ⟨13, _⟩ => ⟨S1x150000, .i32⟩
  | .hbm, ⟨14, _⟩ => ⟨S150000, .i32⟩
  | .hbm, ⟨15, _⟩ => ⟨S_, .i32⟩
  | .hbm, ⟨16, _⟩ => ⟨S150000, .i32⟩
  | .hbm, ⟨17, _⟩ => ⟨S150000, .i1⟩
  | .hbm, ⟨18, _⟩ => ⟨S_, .i32⟩
  | .hbm, ⟨19, _⟩ => ⟨S150000, .i32⟩
  | .hbm, ⟨20, _⟩ => ⟨S150000, .i32⟩
  | .hbm, ⟨21, _⟩ => ⟨S150000, .i32⟩
  | .hbm, ⟨22, _⟩ => ⟨S150000x1, .i32⟩
  | .hbm, ⟨23, _⟩ => ⟨S150000x512, .f32⟩
  | .hbm, ⟨24, _⟩ => ⟨S150000x512, .f32⟩
  | .hbm, ⟨25, _⟩ => ⟨S_, .f32⟩
  | .hbm, ⟨26, _⟩ => ⟨S150000, .f32⟩
  | .hbm, ⟨27, _⟩ => ⟨S150000x1, .f32⟩
  | .hbm, ⟨28, _⟩ => ⟨S150000x1, .f32⟩
  | .hbm, ⟨29, _⟩ => ⟨S150000x512, .f32⟩
  | .hbm, ⟨30, _⟩ => ⟨S150000x512, .f32⟩
  | .hbm, ⟨31, _⟩ => ⟨S150000x512, .f32⟩
  | .hbm, ⟨32, _⟩ => ⟨S_, .f32⟩
  | .hbm, ⟨33, _⟩ => ⟨S150000, .f32⟩
  | .hbm, ⟨34, _⟩ => ⟨S150000x1, .f32⟩
  | .hbm, ⟨35, _⟩ => ⟨S150000x1, .f32⟩
  | .hbm, ⟨36, _⟩ => ⟨S150000x512, .f32⟩
  | .hbm, ⟨37, _⟩ => ⟨S150000x512, .f32⟩
  | .hbm, ⟨38, _⟩ => ⟨S150000x512, .f32⟩
  | .hbm, ⟨39, _⟩ => ⟨S_, .f32⟩
  | .hbm, ⟨40, _⟩ => ⟨S150000x512, .f32⟩
  | .hbm, ⟨41, _⟩ => ⟨S150000x512, .f32⟩
  | .hbm, ⟨42, _⟩ => ⟨S150000x512, .f32⟩
  | .hbm, ⟨43, _⟩ => ⟨S_, .f32⟩
  | .hbm, ⟨44, _⟩ => ⟨S150000, .f32⟩
  | .hbm, ⟨45, _⟩ => ⟨S150000, .f32⟩
  | .hbm, ⟨46, _⟩ => ⟨S_, .f32⟩
  | .hbm, ⟨47, _⟩ => ⟨S150000, .f32⟩
  | .hbm, ⟨48, _⟩ => ⟨S150000, .f32⟩
  | .hbm, ⟨49, _⟩ => ⟨S150000, .f32⟩
  | .hbm, ⟨50, _⟩ => ⟨S150000, .f32⟩
  | .hbm, ⟨51, _⟩ => ⟨S_, .f32⟩
  | .hbm, ⟨52, _⟩ => ⟨S150000, .f32⟩
  | .hbm, ⟨53, _⟩ => ⟨S150000, .f32⟩
  | .hbm, ⟨54, _⟩ => ⟨S_, .f32⟩
  | .hbm, ⟨55, _⟩ => ⟨S150000, .f32⟩
  | .hbm, ⟨56, _⟩ => ⟨S150000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  slices_S2x150000_S1x150000_1_0 : S2x150000.Slices ![1, 0] S1x150000
  reducesTo_S150000x512_S150000_d1 : S150000x512.ReducesTo [1] S150000
  h_S_ : 0 < S_.numel
  bcast_S150000x1_S150000x512_0_1 : S150000x1.BroadcastsInDim S150000x512 (![0, 1] : Fin 2 → Fin S150000x512.rank)
  bcast_S_S150000x512 : S_.BroadcastsInDim S150000x512 (![] : Fin 0 → Fin S150000x512.rank)
  gather_S50000x512_S150000x1_S150000x512_1_0_n_n_0_1_1512_wf : GatherDims.WF S50000x512 S150000x1 S150000x512 [1] [0] [] [0] [] 1 ![1, 512]

variable [Facts₀]

def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf

class Facts : Prop extends Facts₀ where

variable [Facts]
-- ==== Proof.RowScore.lean ====
import Idealize.ShloMosaic.PureOps.Ideal
import Idealize.ShloMosaic.PureOps.Ideal.Laws
import Idealize.ShloMosaic.Lib.ValueIdx

/-!
# The score of one edge, as a function of its two endpoint rows

For rows `a b : Fin 512 → EReal` the score is
`σ (1 - ‖ a/‖a‖ - b/‖b‖ + ε ‖)`, where `‖·‖` is the Euclidean norm (the square root of the sum of the
squares), `ε` is the single-precision word nearest to 10⁻⁶ read as its exact value, and `σ` is the logistic
function.  Every operation is the extended-real one, so the definition makes sense for every row, a zero row
included.
-/

noncomputable section

namespace Cert.EdgeScore

open Idealize.ShloMosaic Idealize.ShloMosaic.ValueIdx

/-- The row divided by its Euclidean norm, entry `k`. -/
def unitEntry (a : Fin 512 → EReal) (k : Fin 512) : EReal :=
  Ideal.div (a k) (Ideal.sqrt (∑ j : Fin 512, a j * a j))

/-- Entry `k` of the difference of the two normalised rows, shifted by `ε`. -/
def gapEntry (a b : Fin 512 → EReal) (k : Fin 512) : EReal :=
  unitEntry a k - unitEntry b k + Ideal.ofBits .f32 0x358637BD#32

/-- The score of an edge whose endpoints carry the rows `a` and `b`. -/
def rowScore (a b : Fin 512 → EReal) : EReal :=
  Ideal.logistic (Ideal.ofBits .f32 0x3F800000#32
    - Ideal.sqrt (∑ k : Fin 512, gapEntry a b k * gapEntry a b k))

/-- Row `e` of a table of 150000 rows of 512 entries. -/
def rowOf (A : (⟨2, ![150000, 512]⟩ : Shape).Idx → EReal) (e : Fin 150000) : Fin 512 → EReal :=
  fun k => A (ix2 e k)

/-- All the scores: edge `e` is scored from row `e` of each of the two tables. -/
def edgeScores (A B : (⟨2, ![150000, 512]⟩ : Shape).Idx → EReal) : (⟨1, ![150000]⟩ : Shape).Idx → EReal :=
  fun e => rowScore (rowOf A (e 0)) (rowOf B (e 0))

/-- The word `0x3F800000` is the number one. -/
theorem ofBits_one_f32 : Ideal.ofBits .f32 0x3F800000#32 = 1 := by
  simp [Ideal.ofBits, Ideal.ieee, -EReal.coe_mul]; norm_num

/-- The logistic function spelt with quotient, sum, exponential and negation, the constant one written as
    its single-precision word. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.EdgeScore

end
-- ==== Proof.KernelRow.lean ====
import proofs.«412710_j46694884442217_2_alg».proof.Proof.Gen.KernelIdeal.Skeleton
import proofs.«412710_j46694884442217_2_alg».proof.Proof.RowScore
import Idealize.ShloMosaic.Lib.Pipeline.Value
import Idealize.ShloMosaic.Lib.ValueIdx
import Idealize.ShloMosaic.PureOps.Ideal.Laws

/-!
# What the kernel body computes for one edge

The body works on a block of 2000 edges: two blocks of 2000 rows of 512 entries go in, a column of 2000
scores comes out.  Entry `r` of that column depends on row `r` of each input block only, and is the score
`Cert.EdgeScore.rowScore` of those two rows: the lane sums are sums over the 512 entries of a row, the
column of norms is spread back over the lanes, and everything else acts entry by entry.
-/

noncomputable section

namespace Cert.KernelIdeal.RowValue

open Cert.KernelIdeal Cert.KernelIdeal.Gen Cert.EdgeScore Idealize.ShloMosaic Idealize.ShloMosaic.ValueIdx

/-- A vector of 2000 row values laid out as a column: entry `(r, c)` is value `r`. -/
theorem col_apply (v : FVec Ideal S2000 .f32) (h : S2000.ShapeCasts S2000x1) (r : Fin 2000) (c : Fin 1) :
    shapeCast S2000x1 v h (ix2 r c) = v (ix1 r) := by
  refine shapeCast_apply v _ (ix2 r c) (ix1 r) ?_
  rw [Shape.rowMajor_val_one, Shape.rowMajor_val_two]
  have := c.isLt
  show r.val = r.val * 1 + c.val
  omega

/-- The lane sum of a block, at row `r`: the sum of the row's 512 entries. -/
theorem rowSum_apply (v : FVec Ideal S2000x512 .f32) (h : S2000x512.Reduces [1] S2000) (hφ : FKind.Formats .f32)
    (hacc : (0x00000000#32 : BitVec 32) = 0x00000000#32) (r : Fin 2000) :
    multiReduction (F := Ideal) .add [1] S2000 v 0x00000000#32 h hφ hacc (ix1 r)
      = ∑ k : Fin 512, v (ix2 r k) := by
  refine (Ideal.multiReduction_add_single v 0x00000000#32 h hφ hacc (ix1 r)).trans ?_
  refine Finset.sum_congr rfl fun k _ => congrArg v (funext fun a => Fin.ext ?_)
  match a with
  | ⟨0, _⟩ => rfl
  | ⟨1, _⟩ => rfl

/-- A column spread over the 512 lanes: entry `(r, k)` is the column's entry `r`. -/
theorem spread_apply (v : FVec Ideal S2000x1 .f32) (h : S2000x1.Broadcasts S2000x512) (r : Fin 2000) (k : Fin 512) :
    broadcastTo S2000x512 v h (ix2 r k) = v (ix2 r 0) := by
  refine broadcastTo_apply v _ (ix2 r k) (ix2 r 0) fun a => ?_
  match a with
  | ⟨0, _⟩ => show r.val = if (2000 : Nat) = 1 then 0 else r.val; rw [if_neg (by decide)]
  | ⟨1, _⟩ => show 0 = if (1 : Nat) = 1 then 0 else k.val; rw [if_pos rfl]

/-- A block divided, row by row, by the Euclidean norm of the row: entry `(r, k)`. -/
theorem unit_apply (x : Vec Ideal S2000x512 .f32) (h1 : S2000x512.Reduces [1] S2000) (hφ : FKind.Formats .f32)
    (hacc : (0x00000000#32 : BitVec 32) = 0x00000000#32) (h2 : S2000.ShapeCasts S2000x1)
    (h3 : S2000x1.Broadcasts S2000x512) (r : Fin 2000) (k : Fin 512) :
    divf x (broadcastTo S2000x512
        (sqrt (shapeCast S2000x1 (multiReduction (F := Ideal) .add [1] S2000 (mulf x x) 0x00000000#32 h1 hφ hacc) h2)) h3) (ix2 r k)
      = unitEntry (fun j => x (ix2 r j)) k := by
  refine (divf_apply _ _ _).trans ?_
  unfold unitEntry
  refine congrArg (Ideal.div (x (ix2 r k))) ?_
  refine (spread_apply _ _ r k).trans ?_
  refine congrArg Ideal.sqrt ?_
  refine (col_apply _ _ r 0).trans ?_
  exact rowSum_apply _ _ _ _ r

/-- The shifted difference of the two normalised blocks: entry `(r, k)`. -/
theorem gap_apply (x0 x1 : Vec Ideal S2000x512 .f32) (h1 : S2000x512.Reduces [1] S2000) (hφ : FKind.Formats .f32)
    (hacc : (0x00000000#32 : BitVec 32) = 0x00000000#32) (h2 : S2000.ShapeCasts S2000x1)
    (h3 : S2000x1.Broadcasts S2000x512) (r : Fin 2000) (k : Fin 512) :
    addf (subf
        (divf x0 (broadcastTo S2000x512
          (sqrt (shapeCast S2000x1 (multiReduction (F := Ideal) .add [1] S2000 (mulf x0 x0) 0x00000000#32 h1 hφ hacc) h2)) h3))
        (divf x1 (broadcastTo S2000x512
          (sqrt (shapeCast S2000x1 (multiReduction (F := Ideal) .add [1] S2000 (mulf x1 x1) 0x00000000#32 h1 hφ hacc) h2)) h3)))
      (broadcast S2000x512 (Scalar.ofBits (F := Ideal) .f32 0x358637BD#32)) (ix2 r k)
      = gapEntry (fun j => x0 (ix2 r j)) (fun j => x1 (ix2 r j)) k := by
  refine (addf_apply _ _ _).trans ?_
  unfold gapEntry
  refine congrArg (· + Ideal.ofBits .f32 0x358637BD#32) ?_
  refine (subf_apply _ _ _).trans ?_
  exact congrArg₂ (· - ·) (unit_apply x0 h1 hφ hacc h2 h3 r k) (unit_apply x1 h1 hφ hacc h2 h3 r k)

/-- Entry `r` of the column the body stores is the score of rows `r` of the two input blocks. -/
theorem pay_row (x0 x1 : Vec Ideal S2000x512 .f32) (r : Fin 2000) :
    k0_pay1 (F := Ideal) x0 x1 (ix2 r 0) = rowScore (fun k => x0 (ix2 r k)) (fun k => x1 (ix2 r k)) := by
  unfold k0_pay1
  simp only [shapeCast_self]
  unfold rowScore
  refine congrArg (fun s => Ideal.logistic (Ideal.ofBits .f32 0x3F800000#32 - Ideal.sqrt s)) ?_
  refine (col_apply _ _ r 0).trans ?_
  refine (rowSum_apply _ _ _ _ r).trans ?_
  refine Finset.sum_congr rfl fun k _ => ?_
  refine (mulf_apply _ _ _).trans ?_
  exact congrArg₂ (· * ·) (gap_apply x0 x1 _ _ _ _ _ r k) (gap_apply x0 x1 _ _ _ _ _ r k)

end Cert.KernelIdeal.RowValue

end
-- ==== Proof.KernelArray.lean ====
import proofs.«412710_j46694884442217_2_alg».proof.Proof.Gen.KernelIdeal.Frame
import proofs.«412710_j46694884442217_2_alg».proof.Proof.KernelRow
import Idealize.ShloMosaic.Lib.Pipeline.Value
import Idealize.ShloMosaic.Lib.StableHlo.Run

/-!
# From the kernel's blocks to the whole result

Grid point `t` (of 75) handles edges `2000 t … 2000 t + 1999`: its two input blocks are rows `2000 t + r` of the
two fetched tables, and the column it writes back holds the scores of those edges.  The 75 output blocks tile
the column of 150000 scores, so after the run the column is `scoreCol` of the two tables; the host then lays
the column out as a vector, which is `Cert.EdgeScore.edgeScores` of the two tables.
-/

noncomputable section

namespace Cert.KernelIdeal.ArrayValue

open Cert.KernelIdeal Cert.KernelIdeal.Gen Cert.KernelIdeal.RowValue Cert.EdgeScore
open Idealize.ShloMosaic Idealize.ShloMosaic.TcCoe Idealize.SL.Sem Idealize.ShloMosaic.ValueIdx
open Idealize.ShloMosaic.Pipeline (Dat)

/-- The block's stores and loads start at the block's corner. -/
theorem origin : (![0, 0] : Fin 2 → Nat) = fun _ => 0 := funext fun a => by fin_cases a <;> rfl

/-- The scores as a column: entry `(e, 0)` is the score of rows `e` of the two tables. -/
def scoreCol (A B : S150000x512.Idx → EReal) : S150000x1.Idx → EReal :=
  fun i => rowScore (rowOf A (i 0)) (rowOf B (i 0))

/-- The body's column at any of its 2000 entries: the score of that row of the two input blocks. -/
theorem pay_at (x0 x1 : Vec Ideal S2000x512 .f32) (y : S2000x1.Idx) :
    k0_pay1 (F := Ideal) x0 x1 y = rowScore (fun k => x0 (ix2 (y 0) k)) (fun k => x1 (ix2 (y 0) k)) := by
  obtain ⟨r, q, rfl⟩ : ∃ (r : Fin 2000) (q : Fin 1), y = ix2 r q := ⟨y 0, y 1, eq_ix2 y⟩
  obtain rfl : q = 0 := Subsingleton.elim _ _
  exact pay_row x0 x1 r

/-- At point `t` all three windows sit at row block `t`, lane block 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` computes from blocks `t` of any two tables is block `t` of the column of their scores: row `r`
    of an input block is row `2000 t + r` of its table, entry `r` of the output block is entry `2000 t + r` of the
    column. -/
theorem block_scores (t : Fin cfg0.N) (A0 A1 : S150000x512.Idx → EReal) :
    (win0 2).cut (grid0.coords t)
        (k0_pay1 (F := Ideal) (((cfg0.win 0).blk t).view.read (Elt Ideal) A0) (((cfg0.win 1).blk t).view.read (Elt Ideal) A1))
      = ((cfg0.win 2).blk t).view.read (Elt Ideal) (scoreCol A0 A1) := by
  obtain ⟨e0, e1, e2, e3, e4, e5⟩ := block_index t
  funext j
  refine (pay_at _ _ ((win0 2).xinj (grid0.coords t) j)).trans ?_
  show _ = scoreCol A0 A1 (((cfg0.win 2).blk t).view.emb j)
  unfold scoreCol rowOf
  refine congrArg₂ rowScore (funext fun k => ?_) (funext fun k => ?_)
  · show A0 (((cfg0.win 0).blk t).view.emb (ix2 ((win0 2).xinj (grid0.coords t) j 0) k))
      = A0 (ix2 ((((cfg0.win 2).blk t).view.emb j) 0) k)
    refine congrArg A0 (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show A1 (((cfg0.win 1).blk t).view.emb (ix2 ((win0 2).xinj (grid0.coords t) j 0) k))
      = A1 (ix2 ((((cfg0.win 2).blk t).view.emb j) 0) k)
    refine congrArg A1 (funext fun a => Fin.ext ?_)
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 512 + 1 * k.val = k.val; omega

variable (m : (ℓ : Loc nD τ sig) → Buf (Elt Ideal) ℓ) (ρ : Dev nD → PrngReg)

/-- The first gathered table as the region finds it, and the second. -/
abbrev tableA (c : Dev nD) : S150000x512.Idx → EReal := V m c (Pipeline.arrRef spec0 0)
abbrev tableB (c : Dev nD) : S150000x512.Idx → EReal := V m c (Pipeline.arrRef spec0 1)

/-- What point `t` writes back is block `t` of the column of scores of the two tables the region was launched on. -/
theorem flushed_eq (c : Dev nD) (t : Fin cfg0.N) :
    (dats m 0 c).flushed 2 t = ((cfg0.win 2).blk t).view.read (Elt Ideal) (scoreCol (tableA m c) (tableB m c)) := by
  show (cfg0.win 2).cut (grid0.coords t) ((dats m 0 c).after 2 t) = _
  rw [after0_2]
  unfold out0_2
  rw [View.canon_unit_zero origin]
  simp only [View.ld_unit_zero (S := S2000x512) origin]
  exact block_scores t _ _

/-- An index of the column is in point `t`'s block iff each coordinate is in the block's range on its axis. -/
theorem mem_blk (t : Fin cfg0.N) (i : S150000x1.Idx) :
    i ∈ ((cfg0.win 2).blk t).view.set ↔ ∀ a : Fin 2, win0_2.index t a * S2000x1.size a ≤ (i a).val
      ∧ (i a).val < win0_2.index t a * S2000x1.size a + S2000x1.size a := by
  show i ∈ ((View.whole main_v6).slice (win0_2.rect t)).set ↔ _
  rw [View.set_slice_whole, Rect.mem_set_unit]
  exact Iff.rfl

/-- Every entry of the column is in some point's block: entry `e` in that of point `e / 2000`. -/
theorem cover (i : S150000x1.Idx) :
    ∃ t : Fin cfg0.N, (cfg0.win 2).flush t = true ∧ i ∈ ((cfg0.win 2).blk t).view.set := by
  have hi0 : (i 0).val < 150000 := (i 0).isLt
  have hi1 : (i 1).val < 1 := (i 1).isLt
  have hN : cfg0.N = 75 := N_0
  obtain ⟨t, ht⟩ : ∃ t : Fin cfg0.N, t.val = (i 0).val / 2000 := ⟨⟨(i 0).val / 2000, by omega⟩, rfl⟩
  obtain ⟨-, -, -, -, e4, e5⟩ := block_index t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 1 ≤ (i 1).val ∧ (i 1).val < win0_2.index t (1 : Fin 2) * 1 + 1; omega

/-- After the run the column holds the scores of the two tables. -/
theorem final (c : Dev nD) : (dats m 0 c).arrAt 2 cfg0.N = scoreCol (tableA m c) (tableB m c) :=
  (dats m 0 c).arrAt_eq_of_cover 2 (scoreCol (tableA m c) (tableB m c)) (fun t _ => flushed_eq m c t) cover

/-- The column laid out as a vector: entry `p` is entry `(p, 0)` of the column. -/
theorem col_scores (A B : S150000x512.Idx → EReal) (h : S150000x1.ShapeCasts S150000) :
    shapeCast S150000 (scoreCol A B) h = edgeScores A B := by
  funext e
  obtain ⟨p, rfl⟩ : ∃ p : Fin 150000, e = ix1 p := ⟨e 0, eq_ix1 e⟩
  refine (shapeCast_apply _ h (ix1 p) (ix2 p 0) ?_).trans rfl
  rw [Shape.rowMajor_val_two, Shape.rowMajor_val_one]
  show p.val * 1 + 0 = p.val
  omega

/-- The host operation after the region reshapes the column the region left; its result is the vector of scores. -/
theorem tail_eq (c : Dev nD) :
    Pipeline.afterTail₀ cfgs (dats m) 0 (V0 m) [hostOps1] c main_v7 = edgeScores (tableA m c) (tableB m c) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v6)
      = scoreCol (tableA m c) (tableB m c) :=
    (Pipeline.withArrays_arr spec0 launch0.win.arr_inj c _ _ 2).trans (final m c)
  rw [hA]
  exact col_scores _ _ _

/-- The kernel's run, read: the result holds the scores of the two tables the region was launched on, edge by
    edge, and the arguments end as they began. -/
theorem run : θ_run defs (onTc (τ := τ) (main (F := Ideal))) ⟨m, fun _ => 0, ρ⟩ fun r => ∀ c : Dev nD,
      r.2.mem ((c.tc : Thread nD τ).loc main_v7) = edgeScores (tableA m c) (tableB m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ArrayValue

end
-- ==== Proof.LibAndAll.lean ====
import Idealize.ShloMosaic.PureOps.Reduce

/-!
# A conjunction over an axis that holds everywhere

`Lib/ReduceAll.lean` of the library reads a `stablehlo.reduce` with body `and` from its result to its operand: if
the result is true at `j`, every operand element that drops to `j` is true.  This file has the converse for a
reduction that starts from `true`: if EVERY element of the operand is true, the result is true at every index,
whatever the axes reduced.
-/

namespace Idealize.ShloMosaic

namespace IntOp

/-- A left fold of `and` from `true` over elements that are all `true` is `true`. -/
theorem foldl_andi_of_all {ι : Type} (f : ι → BitVec 1) :
    ∀ l : List ι, (∀ n ∈ l, f n = 1#1) → l.foldl (fun r n => andi r (f n)) 1#1 = 1#1
  | [], _ => rfl
  | a :: l, h => by
    have e : andi 1#1 (f a) = 1#1 := by rw [h a (List.mem_cons_self ..)]; decide
    rw [List.foldl_cons, e]
    exact foldl_andi_of_all f l fun n hn => h n (List.mem_cons_of_mem _ hn)

end IntOp

namespace Host

variable {s t u : Shape} {axes : List (Fin s.rank)}

/-- A `stablehlo.reduce` with body `and`, started from `true`, of an operand that is `true` everywhere, is `true`
    at every index of the result. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact IntOp.foldl_andi_of_all x _ fun n _ => hx n

end Host

end Idealize.ShloMosaic
-- ==== Proof.Rows.lean ====
import proofs.«412710_j46694884442217_2_alg».proof.Proof.Gen.KernelIdeal
import proofs.«412710_j46694884442217_2_alg».proof.Proof.LibAndAll
import Idealize.ShloMosaic.Lib.Pipeline.Value
import Idealize.ShloMosaic.Lib.ValueIdx
import Idealize.ShloMosaic.PureOps.Ideal

/-!
# Fetching rows at indices that are in range

Both programs fetch row `w x` of the table for an index word `x`, where `w x = x + 50000` for a negative `x` and
`w x = x` otherwise.  The kernel then keeps the fetched row only where `0 ≤ w x ≤ 49999` and fills the row with a
not-a-number pattern elsewhere.  For `-50000 ≤ x < 50000` (read as a signed word) the wrapped index is in
`[0, 49999]`: the sum `x + 50000` does not overflow the 32-bit word.  So when every index is in that range the
mask is true on every row and the kernel's table is the fetched one.
-/

noncomputable section

namespace Cert.KernelIdeal.Rows

open Cert.KernelIdeal Idealize.ShloMosaic Idealize.ShloMosaic.ValueIdx

/-! ## Words -/

/-- A one-bit word made from a Boolean is the bit one exactly when the Boolean is true. -/
theorem ofBool_one (b : Bool) : BitVec.ofBool b = 1#1 ↔ b = true := by cases b <;> decide
/-- The conjunction of two bits is one exactly when both are. -/
theorem and_one : ∀ a b : BitVec 1, IntOp.andi a b = 1#1 ↔ a = 1#1 ∧ b = 1#1 := by decide

/-! The signed comparisons of two words are the comparisons of their signed values. -/

theorem sge_iff (a b : BitVec 32) : IntOp.cmpi .sge a b = 1#1 ↔ b.toInt ≤ a.toInt := by
  unfold IntOp.cmpi; rw [ofBool_one]; simp only [BitVec.sle, decide_eq_true_eq]
theorem sle_iff (a b : BitVec 32) : IntOp.cmpi .sle a b = 1#1 ↔ a.toInt ≤ b.toInt := by
  unfold IntOp.cmpi; rw [ofBool_one]; simp only [BitVec.sle, decide_eq_true_eq]
theorem slt_iff (a b : BitVec 32) : IntOp.cmpi .slt a b = 1#1 ↔ a.toInt < b.toInt := by
  unfold IntOp.cmpi; rw [ofBool_one]; simp only [BitVec.slt, decide_eq_true_eq]

/-- The index a row is fetched at: a negative word counts from the end of the 50000 rows. -/
def wrapWord (x : BitVec 32) : BitVec 32 :=
  Scalar.select (IntOp.cmpi .slt x 0#32) (IntOp.addi x 50000#32) x

/-- In `[-50000, 50000)` the wrapped index is a row number: for a negative word the sum with 50000 is taken without
    overflow (its signed value is `x + 50000`), and a non-negative word is kept. -/
theorem wrapWord_range (x : BitVec 32) (hlo : -50000 ≤ x.toInt) (hhi : x.toInt < 50000) :
    0 ≤ (wrapWord x).toInt ∧ (wrapWord x).toInt ≤ 49999 := by
  unfold wrapWord
  by_cases hneg : IntOp.cmpi .slt x 0#32 = 1#1
  · rw [hneg, select_one]
    have h0 : x.toInt < 0 := by simpa using (slt_iff x 0#32).mp hneg
    have h5 : (50000#32 : BitVec 32).toInt = 50000 := by decide
    have e : (IntOp.addi x 50000#32).toInt = x.toInt + 50000 := by
      unfold IntOp.addi
      rw [BitVec.toInt_add, h5]
      apply Int.bmod_eq_of_le <;> omega
    omega
  · rw [eq_zero_of_ne_one hneg, select_zero]
    have h0 : ¬ x.toInt < (0#32 : BitVec 32).toInt := fun h => hneg ((slt_iff x 0#32).mpr h)
    have hz : (0#32 : BitVec 32).toInt = 0 := by decide
    omega

/-! ## Vectors -/

/-- One row of the two rows of endpoints, as a flat vector of 150000 words. -/
def endpoint (off : Fin 2 → Nat) (hs : S2x150000.Slices off S1x150000) (x : IVec S2x150000 32) : IVec S150000 32 :=
  shapeCast S150000 (extractStridedSlice S1x150000 off x hs) Facts₀.shapeCasts_S1x150000_S150000

/-- The wrapped indices of a vector of index words. -/
def wrapped (v : IVec S150000 32) : IVec S150000 32 :=
  select (cmpi .slt v (broadcastInDim S150000 ![] Facts₀.bcast_S_S150000 (constantI S_ 32 0#32)))
    (addi v (broadcastInDim S150000 ![] Facts₀.bcast_S_S150000 (constantI S_ 32 50000#32))) v

/-- The wrapped indices as a column of start indices, one per fetched row. -/
def startIdx (v : IVec S150000 32) : IVec S150000x1 32 :=
  broadcastInDim S150000x1 ![0] Facts₀.bcast_S150000_S150000x1_0 (wrapped v)

/-- The kernel's mask: per row, whether the start index is in `[0, 49999]` (a conjunction over the index's one
    component). -/
def inRows (i5 : IVec S150000x1 32) : IVec S150000 1 :=
  Host.reduce IntOp.andi
    (andi (cmpi .sge i5 (broadcastInDim S150000x1 ![] Facts₀.bcast_S_S150000x1 (constantI S_ 32 0#32)))
      (cmpi .sle i5 (broadcastInDim S150000x1 ![0, 1] Facts₀.bcast_S1x1_S150000x1_0_1
        (broadcastInDim S1x1 ![1] Facts₀.bcast_S1_S1x1_1 (constantI S1 32 49999#32)))))
    (constantI S_ 1 1#1) Facts₀.reducesTo_S150000x1_S150000_d1 Facts₀.h_S_

/-- The kernel's table of fetched rows: the row fetched at the wrapped index where the mask holds, a row of
    not-a-number patterns elsewhere. -/
def taken (z : FVec Ideal S50000x512 .f32) (v : IVec S150000 32) : FVec Ideal S150000x512 .f32 :=
  select (broadcastInDim S150000x512 ![0] Facts₀.bcast_S150000_S150000x512_0 (inRows (startIdx v)))
    (Host.gather gather_S50000x512_S150000x1_S150000x512_1_0_n_n_0_1_1512 z (startIdx v))
    (broadcastInDim S150000x512 ![] Facts₀.bcast_S_S150000x512 (constant (F := Ideal) S_ .f32 0x7FC00000#32))

/-- Entry by entry the wrapped vector is the wrapped word. -/
theorem wrapped_apply (v : IVec S150000 32) (i : S150000.Idx) : wrapped v i = wrapWord (v i) := rfl

/-- The start index of row `i 0` is the wrapped index word number `i 0`. -/
theorem startIdx_apply (v : IVec S150000 32) (i : S150000x1.Idx) : startIdx v i = wrapWord (v (ix1 (i 0))) :=
  broadcastInDim_apply _ Facts₀.bcast_S150000_S150000x1_0 (wrapped v) i (ix1 (i 0)) (fun a => match a with
    | ⟨0, _⟩ => by show (i 0).val = if (150000 : Nat) = 1 then 0 else (i 0).val; rw [if_neg (by decide)])

/-- When every index word is in `[-50000, 50000)` the mask holds on every row. -/
theorem inRows_all (v : IVec S150000 32) (hv : ∀ i, -50000 ≤ (v i).toInt ∧ (v i).toInt < 50000) (q : S150000.Idx) :
    inRows (startIdx v) q = 1#1 := by
  unfold inRows
  refine Host.reduce_andi_of_all _ _ _ _ rfl (fun i => ?_) q
  show IntOp.andi (IntOp.cmpi .sge (startIdx v i) 0#32) (IntOp.cmpi .sle (startIdx v i) 49999#32) = 1#1
  rw [startIdx_apply]
  obtain ⟨h1, h2⟩ := wrapWord_range _ (hv (ix1 (i 0))).1 (hv (ix1 (i 0))).2
  have hz : (0#32 : BitVec 32).toInt = 0 := by decide
  have h9 : (49999#32 : BitVec 32).toInt = 49999 := by decide
  exact (and_one _ _).mpr ⟨(sge_iff _ _).mpr (by rw [hz]; exact h1), (sle_iff _ _).mpr (by rw [h9]; exact h2)⟩

/-- Then the kernel's table is the table of rows fetched at the wrapped indices: the fill is never taken. -/
theorem taken_eq_gather (z : FVec Ideal S50000x512 .f32) (v : IVec S150000 32)
    (hv : ∀ i, -50000 ≤ (v i).toInt ∧ (v i).toInt < 50000) :
    taken z v = Host.gather gather_S50000x512_S150000x1_S150000x512_1_0_n_n_0_1_1512 z (startIdx v) := by
  funext i
  refine (select_apply _ _ _ i).trans ?_
  have hb : broadcastInDim S150000x512 ![0] Facts₀.bcast_S150000_S150000x512_0 (inRows (startIdx v)) i = 1#1 :=
    (broadcastInDim_apply _ Facts₀.bcast_S150000_S150000x512_0 (inRows (startIdx v)) i (ix1 (i 0)) (fun a => match a with
      | ⟨0, _⟩ => by show (i 0).val = if (150000 : Nat) = 1 then 0 else (i 0).val; rw [if_neg (by decide)])).trans
      (inRows_all v hv _)
  rw [hb, select_one]

/-- Each entry of a row of endpoints is an entry of the array of endpoints, so a range that holds of the array
    holds of the row. -/
theorem endpoint_range (off : Fin 2 → Nat) (hs : S2x150000.Slices off S1x150000) (x : IVec S2x150000 32)
    (hx : ∀ i, -50000 ≤ (x i).toInt ∧ (x i).toInt < 50000) (q : S150000.Idx) :
    -50000 ≤ (endpoint off hs x q).toInt ∧ (endpoint off hs x q).toInt < 50000 := by
  unfold endpoint shapeCast extractStridedSlice
  exact hx _

end Cert.KernelIdeal.Rows

end
-- ==== Proof.Gathered.lean ====
import proofs.«412710_j46694884442217_2_alg».proof.Proof.Gen.KernelIdeal.Frame
import proofs.«412710_j46694884442217_2_alg».proof.Proof.Rows
import Idealize.ShloMosaic.Lib.StableHlo.Run

/-!
# The two tables the region is launched on

Before the region the host slices the two rows of endpoints out of the argument, wraps the negative indices,
fetches the table's rows at them and masks the rows whose index is out of range.  Composing those operations,
the first input window's array is `Rows.taken` of the table and the first row of endpoints, the second's that of
the table and the second row.
-/

noncomputable section

namespace Cert.KernelIdeal.Gathered

open Cert.KernelIdeal Cert.KernelIdeal.Gen Cert.KernelIdeal.Rows
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The first window's array, from the host operations that write it. -/
theorem first_table (c : Dev nD) :
    (V m c (Pipeline.arrRef spec0 0) : S150000x512.Idx → EReal)
      = taken (m ((c.tc : Thread nD τ).loc main_arg0))
          (endpoint ![0, 0] Facts₀.slices_S2x150000_S1x150000_0_0 (m ((c.tc : Thread nD τ).loc main_arg1))) := by
  show (V m c main_v4 : S150000x512.Idx → EReal) = _
  dsimp only [V, V0]
  simp only [hostOps0, hostOps0_1, hostOps0_2, List.flatten_cons, List.flatten_nil, List.append_nil, List.cons_append, List.nil_append]
  after_results
  simp only [TRef.ofBuf, TRef.toBuf, cast_eq]
  rfl

set_option maxRecDepth 8192 in
set_option maxHeartbeats 4000000 in
/-- The second window's array, likewise. -/
theorem second_table (c : Dev nD) :
    (V m c (Pipeline.arrRef spec0 1) : S150000x512.Idx → EReal)
      = taken (m ((c.tc : Thread nD τ).loc main_arg0))
          (endpoint ![1, 0] Facts₀.slices_S2x150000_S1x150000_1_0 (m ((c.tc : Thread nD τ).loc main_arg1))) := by
  show (V m c main_v5 : S150000x512.Idx → EReal) = _
  dsimp only [V, V0]
  simp only [hostOps0, hostOps0_1, hostOps0_2, List.flatten_cons, List.flatten_nil, List.append_nil, List.cons_append, List.nil_append]
  after_results
  simp only [TRef.ofBuf, TRef.toBuf, cast_eq]
  rfl

end Cert.KernelIdeal.Gathered

end
-- ==== Proof.PreRange.lean ====
import proofs.«412710_j46694884442217_2_alg».proof.Defs
import proofs.«412710_j46694884442217_2_alg».proof.Proof.Gen.KernelIdeal
import proofs.«412710_j46694884442217_2_alg».proof.Proof.Gen.Pre_finite_inputs
import proofs.«412710_j46694884442217_2_alg».proof.Proof.Rows
import Idealize.ShloMosaic.Lib.ReduceAll
import Idealize.ShloMosaic.Lib.ValueIdx

/-!
# What the precondition says of the endpoints

The precondition is the conjunction of three reductions to a single bit: every table entry is finite, every
endpoint word is at least -50000, and every endpoint word is below 50000 (signed comparisons; the word
`4294917296` is -50000).  A conjunction over all entries that is true makes each entry true, so every endpoint
word, read signed, lies in `[-50000, 50000)`.
-/

noncomputable section

namespace Cert.KernelIdeal.PreRange

open Cert.KernelIdeal Cert.KernelIdeal.Rows Idealize.ShloMosaic Idealize.ShloMosaic.TcCoe Idealize.SL.Sem

/-- The rank-zero shape has one index. -/
instance : Subsingleton Cert.Pre_finite_inputs.S_.Idx := ⟨fun a b => funext fun d => d.elim0⟩

/-- Under the precondition every endpoint word is in `[-50000, 50000)`. -/
theorem pre_range (m : (ℓ : Loc nD τ sig) → Buf (Elt Ideal) ℓ) (h : Cert.Pre_KernelIdeal m) (c : Dev nD) (i : S2x150000.Idx) :
    -50000 ≤ ((m ((c.tc : Thread nD τ).loc main_arg1) : IVec S2x150000 32) i).toInt
      ∧ ((m ((c.tc : Thread nD τ).loc main_arg1) : IVec S2x150000 32) i).toInt < 50000 := by
  have e := congrFun (h c) ValueIdx.ix0
  unfold Cert.Pre_finite_inputs.fn at e
  dsimp only at e
  simp only [andi] at e
  rw [and_one, and_one] at e
  obtain ⟨⟨-, h6⟩, h10⟩ := e
  have hm : (4294917296#32 : BitVec 32).toInt = -50000 := by decide
  have h5 : (50000#32 : BitVec 32).toInt = 50000 := by decide
  have g6 : IntOp.cmpi .sge ((m ((c.tc : Thread nD τ).loc main_arg1) : IVec S2x150000 32) i) 4294917296#32 = 1#1 :=
    Host.reduce_andi_all _ _ _ _ ValueIdx.ix0 h6 i
  have g10 : IntOp.cmpi .slt ((m ((c.tc : Thread nD τ).loc main_arg1) : IVec S2x150000 32) i) 50000#32 = 1#1 :=
    Host.reduce_andi_all _ _ _ _ ValueIdx.ix0 h10 i
  have k6 := (sge_iff _ _).mp g6
  have k10 := (slt_iff _ _).mp g10
  omega

end Cert.KernelIdeal.PreRange

end
-- ==== Proof.RefRow.lean ====
import proofs.«412710_j46694884442217_2_alg».proof.Proof.Gen.ReferenceIdeal.Read
import proofs.«412710_j46694884442217_2_alg».proof.Proof.RowScore
import Idealize.ShloMosaic.Lib.ValueIdx
import Idealize.ShloMosaic.PureOps.Ideal.Laws

/-!
# What the reference computes for one edge

The reference works on whole tables: the two tables of gathered endpoint rows (150000 rows of 512 entries
each) go through the row norms, the quotient, the shifted difference, the row sum of squares, the square
root and the logistic function spelt out as `1 / (1 + exp (-v))`.  Read at edge `p`, the result depends on
row `p` of each gathered table only and is the score `Cert.EdgeScore.rowScore` of those two rows: a sum that
starts from the zero word is the plain sum, and the spelt-out logistic function is the logistic function.
-/

noncomputable section

namespace Cert.ReferenceIdeal.RowValue

open Cert.ReferenceIdeal Cert.ReferenceIdeal.Read Cert.EdgeScore Idealize.ShloMosaic Idealize.ShloMosaic.ValueIdx

/-! The index maps of the row sums, of the columns spread over the lanes and of the vectors laid as columns,
    at explicit coordinates. -/

theorem idx_row (p : Fin 150000) (k : Fin 512) : idx_main_v28 (ix1 p) k = ix2 p k :=
  funext fun a => Fin.ext (by match a with | ⟨0, _⟩ => rfl | ⟨1, _⟩ => rfl)
theorem idx_row0 (p : Fin 150000) (k : Fin 512) : idx_main_call0_v1 (ix1 p) k = ix2 p k :=
  funext fun a => Fin.ext (by match a with | ⟨0, _⟩ => rfl | ⟨1, _⟩ => rfl)
theorem idx_row1 (p : Fin 150000) (k : Fin 512) : idx_main_call1_v1 (ix1 p) k = ix2 p k :=
  funext fun a => Fin.ext (by match a with | ⟨0, _⟩ => rfl | ⟨1, _⟩ => rfl)
theorem idx_col19 (p : Fin 150000) (k : Fin 512) : idx_main_v19 (ix2 p k) = ix2 p 0 :=
  funext fun a => Fin.ext (by match a with | ⟨0, _⟩ => rfl | ⟨1, _⟩ => rfl)
theorem idx_col22 (p : Fin 150000) (k : Fin 512) : idx_main_v22 (ix2 p k) = ix2 p 0 :=
  funext fun a => Fin.ext (by match a with | ⟨0, _⟩ => rfl | ⟨1, _⟩ => rfl)
theorem idx_vec0 (p : Fin 150000) (c : Fin 1) : idx_main_call0_v2 (ix2 p c) = ix1 p :=
  funext fun a => Fin.ext (by match a with | ⟨0, _⟩ => rfl)
theorem idx_vec1 (p : Fin 150000) (c : Fin 1) : idx_main_call1_v2 (ix2 p c) = ix1 p :=
  funext fun a => Fin.ext (by match a with | ⟨0, _⟩ => rfl)

/-- The reference's result is, edge by edge, the score of the two gathered rows. -/
theorem ref_scores (x0 : (⟨S50000x512, .f32⟩ : BufTy).Contents (Elt Ideal)) (x1 : (⟨S2x150000, .i32⟩ : BufTy).Contents (Elt Ideal)) :
    val_main_v37 (F := Ideal) x0 x1 = edgeScores (val_main_v8 (F := Ideal) x0 x1) (val_main_v17 (F := Ideal) x0 x1) := by
  funext e
  obtain ⟨p, rfl⟩ : ∃ p : Fin 150000, e = ix1 p := ⟨e 0, eq_ix1 e⟩
  rw [val_main_v37_apply, val_main_v36_apply, val_main_cst_6_apply, val_main_v35_apply, val_main_v34_apply, val_main_cst_5_apply,
    val_main_v33_apply, val_main_v32_apply, val_main_v31_apply, val_main_v30_apply, val_main_cst_4_apply, val_main_v29_apply,
    val_main_v28_apply, val_main_cst_3_apply]
  simp only [idx_row, val_main_v27_apply, val_main_v26_apply, val_main_v25_apply, val_main_cst_apply, val_main_v24_apply,
    val_main_v23_apply, val_main_v22_apply, idx_col22, val_main_v21_apply, val_main_call1_v2_apply, idx_vec1, val_main_call1_v1_apply,
    val_main_call1_cst_apply, idx_row1, val_main_call1_v0_apply,
    val_main_v20_apply, val_main_v19_apply, idx_col19, val_main_v18_apply, val_main_call0_v2_apply, idx_vec0, val_main_call0_v1_apply,
    val_main_call0_cst_apply, idx_row0, val_main_call0_v0_apply]
  simp only [Ideal.ofBits_def, Ideal.ofBits_zero_f32, zero_add, Ideal.hostDivf_def, Ideal.hostUnary_sqrt_def,
    Ideal.hostUnary_exp_def, Ideal.hostNegf_def, Ideal.mulf_def, Ideal.addf_def, Ideal.subf_def, Ideal.negf_def]
  rw [logistic_spelt]
  rfl

end Cert.ReferenceIdeal.RowValue

end
-- ==== Proof.RefGather.lean ====
import proofs.«412710_j46694884442217_2_alg».proof.Proof.RefRow
import proofs.«412710_j46694884442217_2_alg».proof.Proof.Rows

/-!
# The reference fetches the same rows

The reference slices the same two rows of endpoints, wraps the negative indices in the same way and fetches
the table's rows at them; it applies no mask.  Its two fetched tables are therefore, term for term, the
kernel's fetches before masking, and when every index is in range they are the kernel's tables.
-/

noncomputable section

namespace Cert.ReferenceIdeal.RowValue

open Cert.ReferenceIdeal.Read Cert.EdgeScore Cert.KernelIdeal.Rows Idealize.ShloMosaic

/-- The reference's first fetched table is the fetch at the wrapped first row of endpoints. -/
theorem first_gather (z : FVec Ideal Cert.KernelIdeal.S50000x512 .f32) (x : IVec Cert.KernelIdeal.S2x150000 32) :
    val_main_v8 (F := Ideal) z x
      = Host.gather Cert.KernelIdeal.gather_S50000x512_S150000x1_S150000x512_1_0_n_n_0_1_1512 z
          (startIdx (endpoint ![0, 0] Cert.KernelIdeal.Facts₀.slices_S2x150000_S1x150000_0_0 x)) := rfl

/-- Its second fetched table is the fetch at the wrapped second row of endpoints. -/
theorem second_gather (z : FVec Ideal Cert.KernelIdeal.S50000x512 .f32) (x : IVec Cert.KernelIdeal.S2x150000 32) :
    val_main_v17 (F := Ideal) z x
      = Host.gather Cert.KernelIdeal.gather_S50000x512_S150000x1_S150000x512_1_0_n_n_0_1_1512 z
          (startIdx (endpoint ![1, 0] Cert.KernelIdeal.Facts₀.slices_S2x150000_S1x150000_1_0 x)) := rfl

/-- With every index in range, the reference's result is the scores of the kernel's two tables. -/
theorem ref_eq_taken (z : FVec Ideal Cert.KernelIdeal.S50000x512 .f32) (x : IVec Cert.KernelIdeal.S2x150000 32)
    (hx : ∀ i, -50000 ≤ (x i).toInt ∧ (x i).toInt < 50000) :
    val_main_v37 (F := Ideal) z x
      = edgeScores (taken z (endpoint ![0, 0] Cert.KernelIdeal.Facts₀.slices_S2x150000_S1x150000_0_0 x))
          (taken z (endpoint ![1, 0] Cert.KernelIdeal.Facts₀.slices_S2x150000_S1x150000_1_0 x)) := by
  rw [ref_scores, first_gather, second_gather,
    taken_eq_gather z _ (endpoint_range _ _ x hx), taken_eq_gather z _ (endpoint_range _ _ x hx)]

end Cert.ReferenceIdeal.RowValue

end
-- ==== Proof.lean ====
/-
  Edge scores of a graph decoder: for each of 150000 edges the two endpoint rows are fetched from a table of
  50000 rows of 512 entries, each row is divided by its Euclidean norm, and the edge's score is
  `σ (1 - ‖a/‖a‖ - b/‖b‖ + ε‖)` with `σ` the logistic function and `ε` the single-precision word nearest to 10⁻⁶.

  The kernel fetches the rows on the host, a row whose index is out of range being filled with a not-a-number
  pattern, and scores 2000 edges per grid point; the reference fetches the rows with the index clamped and
  scores all edges at once.  Under the precondition every index lies in [-50000, 50000), where a negative
  index counts from the end of the table on both sides; there the kernel's fill is never taken, both programs
  fetch the same rows, and over the extended reals both results are the function `Cert.EdgeScore.edgeScores` of
  the two fetched tables: the lane sums and the host's sums from zero are the same finite sums, the kernel's
  logistic operation is the reference's `1 / (1 + exp (-v))`, and every other operation is the same on both
  sides.  No finiteness of the table is used.
-/
import proofs.«412710_j46694884442217_2_alg».proof.Defs
import proofs.«412710_j46694884442217_2_alg».proof.Proof.Gen.Kernel
import proofs.«412710_j46694884442217_2_alg».proof.Proof.Gen.Kernel.Skeleton
import proofs.«412710_j46694884442217_2_alg».proof.Proof.Gen.Kernel.Launch
import proofs.«412710_j46694884442217_2_alg».proof.Proof.Gen.Kernel.Points
import proofs.«412710_j46694884442217_2_alg».proof.Proof.Gen.Kernel.Frame
import proofs.«412710_j46694884442217_2_alg».proof.Proof.Gen.KernelIdeal
import proofs.«412710_j46694884442217_2_alg».proof.Proof.Gen.KernelIdeal.Skeleton
import proofs.«412710_j46694884442217_2_alg».proof.Proof.Gen.KernelIdeal.Launch
import proofs.«412710_j46694884442217_2_alg».proof.Proof.Gen.KernelIdeal.Points
import proofs.«412710_j46694884442217_2_alg».proof.Proof.Gen.KernelIdeal.Frame
import proofs.«412710_j46694884442217_2_alg».proof.Proof.Gen.ReferenceIdeal
import proofs.«412710_j46694884442217_2_alg».proof.Proof.Gen.ReferenceIdeal.Run
import proofs.«412710_j46694884442217_2_alg».proof.Proof.Gen.ReferenceIdeal.Read
import proofs.«412710_j46694884442217_2_alg».proof.Proof.Gen.Pre_finite_inputs
import proofs.«412710_j46694884442217_2_alg».proof.Proof.KernelArray
import proofs.«412710_j46694884442217_2_alg».proof.Proof.Gathered
import proofs.«412710_j46694884442217_2_alg».proof.Proof.PreRange
import proofs.«412710_j46694884442217_2_alg».proof.Proof.RefGather
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the scores of the rows fetched at the wrapped indices: the kernel's by its blocks, which
    tile the 150000 edges, and by its host fetch, whose fill is never taken inside the index range; the
    reference's by reading its operations at an edge. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2]
  show _ = Cert.EdgeScore.edgeScores (Cert.KernelIdeal.Gen.V m c (Pipeline.arrRef Cert.KernelIdeal.spec0 0))
    (Cert.KernelIdeal.Gen.V m c (Pipeline.arrRef Cert.KernelIdeal.spec0 1))
  rw [Cert.KernelIdeal.Gathered.first_table, Cert.KernelIdeal.Gathered.second_table]
  exact Cert.ReferenceIdeal.RowValue.ref_eq_taken _ _ (Cert.KernelIdeal.PreRange.pre_range m hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
